-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x512 : Shape := ⟨3, ![4, 128, 512]⟩
abbrev S4 : Shape := ⟨1, ![4]⟩
abbrev S4x64x512 : Shape := ⟨3, ![4, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S4x128x512 : S_.BroadcastsInDim S4x128x512 (![] : Fin 0 → Fin S4x128x512.rank)
  reducesTo_S4x128x512_S_d0_1_2 : S4x128x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S1024x640 : S_.BroadcastsInDim S1024x640 (![] : Fin 0 → Fin S1024x640.rank)
  reducesTo_S1024x640_S_d0_1 : S1024x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S640x1024 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg6
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x128x512 .f32) (main_arg1 : IVec S4 32) (main_arg2 : FVec F S4x64x512 .f32) (main_arg3 : IVec S4 32) (main_arg4 : FVec F S1024x640 .f32) (main_arg5 : FVec F S640 .f32) (main_arg6 : FVec F S640x1024 .f32) (main_arg7 : FVec F S1024 .f32) : IVec S_ 1 :=
  let main_v0 : FVec F S4x128x512 .f32 := Host.absf main_arg0
  let main_cst : FVec F S_ .f32 := constant S_ .f32 0x7F800000#32
  let main_v1 : FVec F S4x128x512 .f32 := broadcastInDim S4x128x512 ![] bcast_S_S4x128x512 main_cst
  let main_v2 : IVec S4x128x512 1 := cmpf .olt main_v0 main_v1
  let main_c : IVec S_ 1 := constantI S_ 1 1#1
  let main_v3 : IVec S_ 1 := (fun x v => Host.reduce IntOp.andi x v reducesTo_S4x128x512_S_d0_1_2 h_S_) main_v2 main_c
  let main_v4 : FVec F S4x64x512 .f32 := Host.absf main_arg2
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S1024x640 .f32 := Host.absf main_arg4
  let main_cst_2 : FVec F S_ .f32 := constant S_ .f32 0x7F800000#32
  let main_v10 : FVec F S1024x640 .f32 := broadcastInDim S1024x640 ![] bcast_S_S1024x640 main_cst_2
  let main_v11 : IVec S1024x640 1 := cmpf .olt main_v9 main_v10
  let main_c_3 : IVec S_ 1 := constantI S_ 1 1#1
  let main_v12 : IVec S_ 1 := (fun x v => Host.reduce IntOp.andi x v reducesTo_S1024x640_S_d0_1 h_S_) main_v11 main_c_3
  let main_v13 : IVec S_ 1 := andi main_v8 main_v12
  let main_v14 : FVec F S640 .f32 := Host.absf main_arg5
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg6 main_arg7 main_v13 main_v16
-- ==== Kernel.lean ====
abbrev S4x128x512 : Shape := ⟨3, ![4, 128, 512]⟩
abbrev S4 : Shape := ⟨1, ![4]⟩
abbrev S4x64x512 : Shape := ⟨3, ![4, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S512x640 : Shape := ⟨2, ![512, 640]⟩
abbrev S4x128x64x1024 : Shape := ⟨4, ![4, 128, 64, 1024]⟩
abbrev S1x16x512 : Shape := ⟨3, ![1, 16, 512]⟩
abbrev S1x64x512 : Shape := ⟨3, ![1, 64, 512]⟩
abbrev S1x16x64x1024 : Shape := ⟨4, ![1, 16, 64, 1024]⟩
abbrev S16x512 : Shape := ⟨2, ![16, 512]⟩
abbrev S16x640 : Shape := ⟨2, ![16, 640]⟩
abbrev S64x512 : Shape := ⟨2, ![64, 512]⟩
abbrev S64x640 : Shape := ⟨2, ![64, 640]⟩
abbrev S16x1x640 : Shape := ⟨3, ![16, 1, 640]⟩
abbrev S1x64x640 : Shape := ⟨3, ![1, 64, 640]⟩
abbrev S16x64x640 : Shape := ⟨3, ![16, 64, 640]⟩
abbrev S1x1x640 : Shape := ⟨3, ![1, 1, 640]⟩
abbrev S1024x1024 : Shape := ⟨2, ![1024, 1024]⟩
abbrev S1x1024 : Shape := ⟨2, ![1, 1024]⟩
abbrev S1024x1 : Shape := ⟨2, ![1024, 1]⟩
abbrev S16x64x1024 : Shape := ⟨3, ![16, 64, 1024]⟩

abbrev nBuf : Space → Nat
  | .hbm => 16
  | .vmem => 11
  | .smem => 0
  | _ => 0

abbrev bufTy : (tb : Table) → Fin (tcTables nBuf tb) → BufTy
  | .hbm, ⟨0, _⟩ => ⟨S4x128x512, .f32⟩
  | .hbm, ⟨1, _⟩ => ⟨S4, .i32⟩
  | .hbm, ⟨2, _⟩ => ⟨S4x64x512, .f32⟩
  | .hbm, ⟨3, _⟩ => ⟨S4, .i32⟩
  | .hbm, ⟨4, _⟩ => ⟨S1024x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S4x128x512, .bf16⟩
  | .hbm, ⟨9, _⟩ => ⟨S4x64x512, .bf16⟩
  | .hbm, ⟨10, _⟩ => ⟨S512x640, .f32⟩
  | .hbm, ⟨11, _⟩ => ⟨S512x640, .bf16⟩
  | .hbm, ⟨12, _⟩ => ⟨S512x640, .f32⟩
  | .hbm, ⟨13, _⟩ => ⟨S512x640, .bf16⟩
  | .hbm, ⟨14, _⟩ => ⟨S640x1024, .bf16⟩
  | .hbm, ⟨15, _⟩ => ⟨S4x128x64x1024, .f32⟩
  | .local _ .vmem, ⟨0, _⟩ => ⟨S1x16x512, .bf16⟩
  | .local _ .vmem, ⟨1, _⟩ => ⟨S1x16x512, .bf16⟩
  | .local _ .vmem, ⟨2, _⟩ => ⟨S1x64x512, .bf16⟩
  | .local _ .vmem, ⟨3, _⟩ => ⟨S1x64x512, .bf16⟩
  | .local _ .vmem, ⟨4, _⟩ => ⟨S512x640, .bf16⟩
  | .local _ .vmem, ⟨5, _⟩ => ⟨S512x640, .bf16⟩
  | .local _ .vmem, ⟨6, _⟩ => ⟨S640, .f32⟩
  | .local _ .vmem, ⟨7, _⟩ => ⟨S640x1024, .bf16⟩
  | .local _ .vmem, ⟨8, _⟩ => ⟨S1024, .f32⟩
  | .local _ .vmem, ⟨9, _⟩ => ⟨S1x16x64x1024, .f32⟩
  | .local _ .vmem, ⟨10, _⟩ => ⟨S1x16x64x1024, .f32⟩
  | _, _ => ⟨S4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  slices_S1024x640_S512x640_0_0 : S1024x640.Slices ![0, 0] S512x640
  slices_S1024x640_S512x640_512_0 : S1024x640.Slices ![512, 0] S512x640
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S16x640_S16x1x640 : S16x640.ShapeCasts S16x1x640
  shapeCasts_S64x640_S1x64x640 : S64x640.ShapeCasts S1x64x640
  broadcasts_S16x1x640_S16x64x640 : S16x1x640.Broadcasts S16x64x640
  broadcasts_S1x64x640_S16x64x640 : S1x64x640.Broadcasts S16x64x640
  inb_S640_S640_0 : ∀ a, (![0] : Fin 1 → Nat) a + S640.size a ≤ S640.size a
  h_S640 : 0 < S640.numel
  shapeCasts_S640_S1x1x640 : S640.ShapeCasts S1x1x640
  broadcasts_S1x1x640_S16x64x640 : S1x1x640.Broadcasts S16x64x640
  shapeCasts_S16x64x640_S1024x640 : S16x64x640.ShapeCasts S1024x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S16x512_S512x640_S16x640_1_0_0_1_n_n_wf : DotDims.WF S16x512 S512x640 S16x640 [1] [0] [0] [1] [] []
  dot_S64x512_S512x640_S64x640_1_0_0_1_n_n_wf : DotDims.WF S64x512 S512x640 S64x640 [1] [0] [0] [1] [] []
  dot_S1024x640_S640x1024_S1024x1024_1_0_0_1_n_n_wf : DotDims.WF S1024x640 S640x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x128x512.size a
  hwx0_0 : ∀ i : grid0.Coords, EltTy.bits .bf16 = 32 ∨ (Rect.block (s := S4x128x512) S1x16x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .bf16 = 32 ∨ (Rect.block (s := S4x64x512) S1x64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S512x640.size a
  hwx0_3 : ∀ i : grid0.Coords, EltTy.bits .bf16 = 32 ∨ (Rect.block (s := S512x640) S512x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640.size a ≤ S640.size a
  hwx0_4 : ∀ i : grid0.Coords, EltTy.bits .f32 = 32 ∨ (Rect.block (s := S640) S640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x1024.size a ≤ S640x1024.size a
  hwx0_5 : ∀ i : grid0.Coords, EltTy.bits .bf16 = 32 ∨ (Rect.block (s := S640x1024) S640x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x1024.size a ≤ S4x128x64x1024.size a
  hwx0_7 : ∀ i : grid0.Coords, EltTy.bits .f32 = 32 ∨ (Rect.block (s := S4x128x64x1024) S1x16x64x1024.size (cc0_transform_7 i) (hinb0_7 i)).WholeWords (EltTy.packing .f32)

variable [Facts₀]

def dot_S16x512_S512x640_S16x640_1_0_0_1_n_n : DotDims S16x512 S512x640 S16x640 where
  lhsContracting := [1]
  rhsContracting := [0]
  lhsNonContracting := [0]
  rhsNonContracting := [1]
  lhsBatch := []
  rhsBatch := []
  wf := dot_S16x512_S512x640_S16x640_1_0_0_1_n_n_wf
def dot_S64x512_S512x640_S64x640_1_0_0_1_n_n : DotDims S64x512 S512x640 S64x640 where
  lhsContracting := [1]
  rhsContracting := [0]
  lhsNonContracting := [0]
  rhsNonContracting := [1]
  lhsBatch := []
  rhsBatch := []
  wf := dot_S64x512_S512x640_S64x640_1_0_0_1_n_n_wf
def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf

abbrev win0_0 : Pipeline.Window sig grid0 :=
  Pipeline.Window.ofSpec (Memref.whole main_v0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S640x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x16x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x128x512 : Shape := ⟨3, ![4, 128, 512]⟩
abbrev S4 : Shape := ⟨1, ![4]⟩
abbrev S4x64x512 : Shape := ⟨3, ![4, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S512x640 : Shape := ⟨2, ![512, 640]⟩
abbrev S4x128x640 : Shape := ⟨3, ![4, 128, 640]⟩
abbrev S4x64x640 : Shape := ⟨3, ![4, 64, 640]⟩
abbrev S4x128x1x640 : Shape := ⟨4, ![4, 128, 1, 640]⟩
abbrev S4x1x64x640 : Shape := ⟨4, ![4, 1, 64, 640]⟩
abbrev S4x128x64x640 : Shape := ⟨4, ![4, 128, 64, 640]⟩
abbrev S1x1x1x640 : Shape := ⟨4, ![1, 1, 1, 640]⟩
abbrev S4x128x64x1024 : Shape := ⟨4, ![4, 128, 64, 1024]⟩
abbrev S1x1x1x1024 : Shape := ⟨4, ![1, 1, 1, 1024]⟩
abbrev S_ : Shape := ⟨0, ![]⟩
abbrev S4x128x64 : Shape := ⟨3, ![4, 128, 64]⟩
abbrev S4x128x64x1 : Shape := ⟨4, ![4, 128, 64, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x128x512, .f32⟩
  | .hbm, ⟨1, _⟩ => ⟨S4, .i32⟩
  | .hbm, ⟨2, _⟩ => ⟨S4x64x512, .f32⟩
  | .hbm, ⟨3, _⟩ => ⟨S4, .i32⟩
  | .hbm, ⟨4, _⟩ => ⟨S1024x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S512x640, .f32⟩
  | .hbm, ⟨9, _⟩ => ⟨S512x640, .f32⟩
  | .hbm, ⟨10, _⟩ => ⟨S4x128x640, .f32⟩
  | .hbm, ⟨11, _⟩ => ⟨S4x64x640, .f32⟩
  | .hbm, ⟨12, _⟩ => ⟨S4x128x1x640, .f32⟩
  | .hbm, ⟨13, _⟩ => ⟨S4x1x64x640, .f32⟩
  | .hbm, ⟨14, _⟩ => ⟨S4x128x64x640, .f32⟩
  | .hbm, ⟨15, _⟩ => ⟨S4x128x64x640, .f32⟩
  | .hbm, ⟨16, _⟩ => ⟨S4x128x64x640, .f32⟩
  | .hbm, ⟨17, _⟩ => ⟨S1x1x1x640, .f32⟩
  | .hbm, ⟨18, _⟩ => ⟨S4x128x64x640, .f32⟩
  | .hbm, ⟨19, _⟩ => ⟨S4x128x64x640, .f32⟩
  | .hbm, ⟨20, _⟩ => ⟨S4x128x64x640, .f32⟩
  | .hbm, ⟨21, _⟩ => ⟨S4x128x64x1024, .f32⟩
  | .hbm, ⟨22, _⟩ => ⟨S1x1x1x1024, .f32⟩
  | .hbm, ⟨23, _⟩ => ⟨S4x128x64x1024, .f32⟩
  | .hbm, ⟨24, _⟩ => ⟨S4x128x64x1024, .f32⟩
  | .hbm, ⟨25, _⟩ => ⟨S_, .f32⟩
  | .hbm, ⟨26, _⟩ => ⟨S4x128x64, .f32⟩
  | .hbm, ⟨27, _⟩ => ⟨S_, .f32⟩
  | .hbm, ⟨28, _⟩ => ⟨S4x128x64, .f32⟩
  | .hbm, ⟨29, _⟩ => ⟨S4x128x64, .f32⟩
  | .hbm, ⟨30, _⟩ => ⟨S4x128x64x1, .f32⟩
  | .hbm, ⟨31, _⟩ => ⟨S4x128x64x1024, .f32⟩
  | .hbm, ⟨32, _⟩ => ⟨S4x128x64x1024, .f32⟩
  | .hbm, ⟨33, _⟩ => ⟨S4x128x64x1024, .f32⟩
  | .hbm, ⟨34, _⟩ => ⟨S_, .f32⟩
  | .hbm, ⟨35, _⟩ => ⟨S4x128x64, .f32⟩
  | .hbm, ⟨36, _⟩ => ⟨S4x128x64x1, .f32⟩
  | .hbm, ⟨37, _⟩ => ⟨S4x128x64x1, .f32⟩
  | .hbm, ⟨38, _⟩ => ⟨S4x128x64x1024, .f32⟩
  | .hbm, ⟨39, _⟩ => ⟨S4x128x64x1024, .f32⟩
  | _, _ => ⟨S4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v17 : Ref sig .tc := ⟨.hbm, 39, rfl⟩

abbrev nD : Nat := 1
abbrev τ : Topo := Topo.v7x

variable {F : FTy → Type} [FloatOps F]

class Facts₀ : Prop where
  slices_S1024x640_S512x640_0_0 : S1024x640.Slices ![0, 0] S512x640
  slices_S1024x640_S512x640_512_0 : S1024x640.Slices ![512, 0] S512x640
  bcast_S4x128x640_S4x128x1x640_0_1_3 : S4x128x640.BroadcastsInDim S4x128x1x640 (![0, 1, 3] : Fin 3 → Fin S4x128x1x640.rank)
  bcast_S4x64x640_S4x1x64x640_0_2_3 : S4x64x640.BroadcastsInDim S4x1x64x640 (![0, 2, 3] : Fin 3 → Fin S4x1x64x640.rank)
  bcast_S4x128x1x640_S4x128x64x640_0_1_2_3 : S4x128x1x640.BroadcastsInDim S4x128x64x640 (![0, 1, 2, 3] : Fin 4 → Fin S4x128x64x640.rank)
  bcast_S4x1x64x640_S4x128x64x640_0_1_2_3 : S4x1x64x640.BroadcastsInDim S4x128x64x640 (![0, 1, 2, 3] : Fin 4 → Fin S4x128x64x640.rank)
  bcast_S640_S1x1x1x640_3 : S640.BroadcastsInDim S1x1x1x640 (![3] : Fin 1 → Fin S1x1x1x640.rank)
  bcast_S1x1x1x640_S4x128x64x640_0_1_2_3 : S1x1x1x640.BroadcastsInDim S4x128x64x640 (![0, 1, 2, 3] : Fin 4 → Fin S4x128x64x640.rank)
  bcast_S1024_S1x1x1x1024_3 : S1024.BroadcastsInDim S1x1x1x1024 (![3] : Fin 1 → Fin S1x1x1x1024.rank)
  bcast_S1x1x1x1024_S4x128x64x1024_0_1_2_3 : S1x1x1x1024.BroadcastsInDim S4x128x64x1024 (![0, 1, 2, 3] : Fin 4 → Fin S4x128x64x1024.rank)
  reducesTo_S4x128x64x1024_S4x128x64_d3 : S4x128x64x1024.ReducesTo [3] S4x128x64
  h_S_ : 0 < S_.numel
  bcast_S_S4x128x64 : S_.BroadcastsInDim S4x128x64 (![] : Fin 0 → Fin S4x128x64.rank)
  bcast_S4x128x64_S4x128x64x1_0_1_2 : S4x128x64.BroadcastsInDim S4x128x64x1 (![0, 1, 2] : Fin 3 → Fin S4x128x64x1.rank)
  bcast_S4x128x64x1_S4x128x64x1024_0_1_2_3 : S4x128x64x1.BroadcastsInDim S4x128x64x1024 (![0, 1, 2, 3] : Fin 4 → Fin S4x128x64x1024.rank)
  dot_S4x128x512_S512x640_S4x128x640_2_0_01_1_n_n_wf : DotDims.WF S4x128x512 S512x640 S4x128x640 [2] [0] [0, 1] [1] [] []
  dot_S4x64x512_S512x640_S4x64x640_2_0_01_1_n_n_wf : DotDims.WF S4x64x512 S512x640 S4x64x640 [2] [0] [0, 1] [1] [] []
  dot_S4x128x64x640_S640x1024_S4x128x64x1024_3_0_012_1_n_n_wf : DotDims.WF S4x128x64x640 S640x1024 S4x128x64x1024 [3] [0] [0, 1, 2] [1] [] []

variable [Facts₀]

def dot_S4x128x512_S512x640_S4x128x640_2_0_01_1_n_n : DotDims S4x128x512 S512x640 S4x128x640 where
  lhsContracting := [2]
  rhsContracting := [0]
  lhsNonContracting := [0, 1]
  rhsNonContracting := [1]
  lhsBatch := []
  rhsBatch := []
  wf := dot_S4x128x512_S512x640_S4x128x640_2_0_01_1_n_n_wf
def dot_S4x64x512_S512x640_S4x64x640_2_0_01_1_n_n : DotDims S4x64x512 S512x640 S4x64x640 where
  lhsContracting := [2]
  rhsContracting := [0]
  lhsNonContracting := [0, 1]
  rhsNonContracting := [1]
  lhsBatch := []
  rhsBatch := []
  wf := dot_S4x64x512_S512x640_S4x64x640_2_0_01_1_n_n_wf
def dot_S4x128x64x640_S640x1024_S4x128x64x1024_3_0_012_1_n_n : DotDims S4x128x64x640 S640x1024 S4x128x64x1024 where
  lhsContracting := [3]
  rhsContracting := [0]
  lhsNonContracting := [0, 1, 2]
  rhsNonContracting := [1]
  lhsBatch := []
  rhsBatch := []
  wf := dot_S4x128x64x640_S640x1024_S4x128x64x1024_3_0_012_1_n_n_wf

class Facts : Prop extends Facts₀ where

variable [Facts]
-- ==== Proof.Joint.lean ====
/-
  The joiner's mathematics, free of any program: for ONE source row x and ONE target row y (512 numbers each) the
  hidden layer is  tanh (x·A + y·B + c1)  over 640 units, where A and B are the top and the bottom half of the first
  weight matrix; the logits are  hidden·W + c2  over 1024 classes; and the result is their log-softmax,
      (z v - M) - log (Σ_v' exp (z v' - M)),   M the maximum of z taken from -∞.
  Everything is on the extended reals, where both programs are read. The output entry (b, t, u, v) of either program is
  this row function of source row (b, t) and target row (b, u), read at v.
-/
import Idealize.ShloMosaic.PureOps.Ideal
import Idealize.ShloMosaic.Lib.ValueIdx

noncomputable section

namespace Cert.Joiner

open Idealize.ShloMosaic Idealize.ShloMosaic.ValueIdx

/-- A row times a matrix, at column h: Σ_d x d · A d h. -/
def rowMat {K N : Nat} (x : Fin K → EReal) (A : Fin K → Fin N → EReal) (h : Fin N) : EReal :=
  ∑ d : Fin K, x d * A d h

/-- The hidden unit h: tanh of the two projections' sum plus the bias. -/
def hidden (x y : Fin 512 → EReal) (A B : Fin 512 → Fin 640 → EReal) (c1 : Fin 640 → EReal) (h : Fin 640) : EReal :=
  Ideal.tanh (rowMat x A h + rowMat y B h + c1 h)

/-- The logit of class v. -/
def logit (hid : Fin 640 → EReal) (W : Fin 640 → Fin 1024 → EReal) (c2 : Fin 1024 → EReal) (v : Fin 1024) : EReal :=
  rowMat hid W v + c2 v

/-- The maximum of a row, taken from -∞ (the f32 pattern 0xFF800000). -/
def rowMax {N : Nat} (z : Fin N → EReal) : EReal :=
  (Finset.univ : Finset (Fin N)).fold max (Ideal.ofBits .f32 0xFF800000#32) z

/-- The log-softmax of a row at v, shifted by the row's maximum as both programs compute it. -/
def logSoftmax {N : Nat} (z : Fin N → EReal) (v : Fin N) : EReal :=
  (z v - rowMax z) - Ideal.log (∑ v' : Fin N, Ideal.exp (z v' - rowMax z))

/-- One output row: the log-softmax of the logits of the hidden layer of (x, y). -/
def joint (x y : Fin 512 → EReal) (A B : Fin 512 → Fin 640 → EReal) (c1 : Fin 640 → EReal)
    (W : Fin 640 → Fin 1024 → EReal) (c2 : Fin 1024 → EReal) (v : Fin 1024) : EReal :=
  logSoftmax (logit (hidden x y A B c1) W c2) v

/-- The f32 pattern of -∞ denotes the bottom of the extended reals. -/
theorem ofBits_negInf : Ideal.ofBits .f32 0xFF800000#32 = (⊥ : EReal) := by
  simp [Ideal.ofBits, Ideal.ieee]

/-- So a maximum with it is the other operand. -/
theorem max_negInf (a : EReal) : max (Ideal.ofBits .f32 0xFF800000#32) a = a := by
  rw [ofBits_negInf]; exact max_bot_left a

/-- The whole output array as one function of the six float arguments: entry (b, t, u, v) is the row function of source
    row (b, t) and target row (b, u) at v; the first weight matrix enters by its rows 0..511 and 512..1023. -/
def G (src : (⟨3, ![4, 128, 512]⟩ : Shape).Idx → EReal) (tgt : (⟨3, ![4, 64, 512]⟩ : Shape).Idx → EReal)
    (W1 : (⟨2, ![1024, 640]⟩ : Shape).Idx → EReal) (b1 : (⟨1, ![640]⟩ : Shape).Idx → EReal)
    (W2 : (⟨2, ![640, 1024]⟩ : Shape).Idx → EReal) (b2 : (⟨1, ![1024]⟩ : Shape).Idx → EReal)
    (i : (⟨4, ![4, 128, 64, 1024]⟩ : Shape).Idx) : EReal :=
  joint (fun d => src (ix3 (i 0) (i 1) d)) (fun d => tgt (ix3 (i 0) (i 2) d))
    (fun d h => W1 (ix2 (⟨d.val, by have := d.isLt; omega⟩ : Fin 1024) h))
    (fun d h => W1 (ix2 (⟨512 + d.val, by have := d.isLt; omega⟩ : Fin 1024) h))
    (fun h => b1 (ix1 h)) (fun h v => W2 (ix2 h v)) (fun v => b2 (ix1 v)) (i 3)

end Cert.Joiner

end
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.SoftmaxRows.lean ====
/-
  The kernel's way of taking a log-softmax along the rows of an m×n block, read at one entry. The block is reduced along
  its second axis twice — a maximum from -∞ and, after the shift and the exponential, a sum from 0 —, each vector of
  per-row results is made a column and copied back across the row. At the entry (p, v) this is the row function
  `logSoftmax` of row p, read at v: the maximum and the sum are over that row's n entries and nothing else.
-/
import Idealize.ShloMosaic.PureOps.Ideal.Laws
import Idealize.ShloMosaic.Lib.Pipeline.Value
import Idealize.ShloMosaic.Lib.ValueIdx
import proofs.«123896_j29824252903691_1_alg».proof.Proof.Joint
import proofs.«123896_j29824252903691_1_alg».proof.Proof.LibLayoutCols

noncomputable section

namespace Cert.Joiner

open Idealize.ShloMosaic Idealize.ShloMosaic.ValueIdx Idealize.ShloMosaic.LibLayoutCols

variable {m n : Nat}

/-- The reduced index p with the column k put back is (p, k). -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The lane maximum of row p from -∞ is the row's maximum. -/
theorem rowMax_of_multiReduction (Z : FVec Ideal ⟨2, ![m, n]⟩ .f32)
    (h : (⟨2, ![m, n]⟩ : Shape).Reduces [1] (⟨1, ![m]⟩ : Shape)) (hφ : FKind.Formats .f32)
    (hacc : (0xFF800000#32 : BitVec 32) = FKind.maximumf.neutral .f32 hφ) (p : Fin m) :
    multiReduction .maximumf [1] ⟨1, ![m]⟩ Z 0xFF800000#32 h hφ hacc (ix1 p) = rowMax fun v : Fin n => Z (ix2 p v) := by
  rw [Ideal.multiReduction_maximumf_single]
  have hf : (Z ∘ h.lift (ix1 p)) = fun k : Fin n => Z (ix2 p k) := funext fun k => congrArg Z (lift_row h p k)
  exact congrArg (fun f => Finset.fold max (Ideal.ofBits .f32 0xFF800000#32) f (Finset.univ : Finset (Fin n))) hf

/-- The lane sum of row p from 0 is the row's sum. -/
theorem rowSum_of_multiReduction (E : FVec Ideal ⟨2, ![m, n]⟩ .f32)
    (h : (⟨2, ![m, n]⟩ : Shape).Reduces [1] (⟨1, ![m]⟩ : Shape)) (hφ : FKind.Formats .f32)
    (hacc : (0x00000000#32 : BitVec 32) = FKind.add.neutral .f32 hφ) (p : Fin m) :
    multiReduction .add [1] ⟨1, ![m]⟩ E 0x00000000#32 h hφ hacc (ix1 p) = ∑ v : Fin n, E (ix2 p v) := by
  rw [Ideal.multiReduction_add_single]
  exact Finset.sum_congr rfl fun k _ => congrArg E (lift_row h p k)

/-- The kernel's log-softmax along the rows of a block, as its body spells it. -/
def blockLogSoftmax (Z : FVec Ideal ⟨2, ![m, n]⟩ .f32)
    (hr : (⟨2, ![m, n]⟩ : Shape).Reduces [1] (⟨1, ![m]⟩ : Shape))
    (hc : (⟨1, ![m]⟩ : Shape).ShapeCasts ⟨2, ![m, 1]⟩) (hb : (⟨2, ![m, 1]⟩ : Shape).Broadcasts ⟨2, ![m, n]⟩)
    (hφ : FKind.Formats .f32) (ha1 : (0xFF800000#32 : BitVec 32) = FKind.maximumf.neutral .f32 hφ)
    (ha2 : (0x00000000#32 : BitVec 32) = FKind.add.neutral .f32 hφ) : FVec Ideal ⟨2, ![m, n]⟩ .f32 :=
  subf (subf Z (broadcastTo ⟨2, ![m, n]⟩ (shapeCast ⟨2, ![m, 1]⟩ (multiReduction .maximumf [1] ⟨1, ![m]⟩ Z 0xFF800000#32 hr hφ ha1) hc) hb))
    (broadcastTo ⟨2, ![m, n]⟩ (log (shapeCast ⟨2, ![m, 1]⟩ (multiReduction .add [1] ⟨1, ![m]⟩
      (exp (subf Z (broadcastTo ⟨2, ![m, n]⟩ (shapeCast ⟨2, ![m, 1]⟩ (multiReduction .maximumf [1] ⟨1, ![m]⟩ Z 0xFF800000#32 hr hφ ha1) hc) hb)))
      0x00000000#32 hr hφ ha2) hc)) hb)

/-- At (p, v) it is the log-softmax of row p at v. -/
theorem blockLogSoftmax_apply (Z : FVec Ideal ⟨2, ![m, n]⟩ .f32)
    (hr : (⟨2, ![m, n]⟩ : Shape).Reduces [1] (⟨1, ![m]⟩ : Shape))
    (hc : (⟨1, ![m]⟩ : Shape).ShapeCasts ⟨2, ![m, 1]⟩) (hb : (⟨2, ![m, 1]⟩ : Shape).Broadcasts ⟨2, ![m, n]⟩)
    (hφ : FKind.Formats .f32) (ha1 : (0xFF800000#32 : BitVec 32) = FKind.maximumf.neutral .f32 hφ)
    (ha2 : (0x00000000#32 : BitVec 32) = FKind.add.neutral .f32 hφ) (p : Fin m) (v : Fin n) :
    blockLogSoftmax Z hr hc hb hφ ha1 ha2 (ix2 p v) = logSoftmax (fun v' : Fin n => Z (ix2 p v')) v := by
  -- the shifted block at any entry of row p: the entry minus the row's maximum
  have hshift : ∀ c : Fin n,
      subf Z (broadcastTo ⟨2, ![m, n]⟩ (shapeCast ⟨2, ![m, 1]⟩ (multiReduction .maximumf [1] ⟨1, ![m]⟩ Z 0xFF800000#32 hr hφ ha1) hc) hb) (ix2 p c)
        = Z (ix2 p c) - rowMax fun v' : Fin n => Z (ix2 p v') := fun c =>
    congrArg (Z (ix2 p c) - ·) ((broadcastTo_shapeCast_col_apply _ hc hb p c).trans (rowMax_of_multiReduction Z hr hφ ha1 p))
  unfold blockLogSoftmax logSoftmax
  refine (subf_apply _ _ _).trans ?_
  rw [hshift v]
  refine congrArg (Z (ix2 p v) - (rowMax fun v' : Fin n => Z (ix2 p v')) - ·) ?_
  -- the column of logarithms copied across the row, at (p, v), is the logarithm of row p's sum
  refine (broadcastTo_a1_ab_apply _ hb p v).trans ?_
  show Ideal.log (shapeCast ⟨2, ![m, 1]⟩ _ hc (ix2 p (0 : Fin 1))) = _
  rw [shapeCast_a_a1_apply _ hc p 0, rowSum_of_multiReduction _ hr hφ ha2 p]
  refine congrArg Ideal.log (Finset.sum_congr rfl fun c _ => ?_)
  show Ideal.exp (subf Z _ (ix2 p c)) = _
  rw [hshift c]

end Cert.Joiner

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.Payload.lean ====
/-
  What the kernel's body computes for one grid point, read at one entry. The body multiplies the point's [16, 512]
  source tile and the batch's [64, 512] target rows by the two halves of the first weight matrix, adds the two
  projections over all (source row, target row) pairs together with the bias, takes tanh, lays the [16, 64, 640] result
  out as 1024 rows, multiplies by the second weight matrix, adds its bias and takes the log-softmax of each row.
  At the entry (r·64 + u, v) of the resulting [1024, 1024] block this is the row function `joint` of source row r and
  target row u of the point's tiles, read at v.
-/
import proofs.«123896_j29824252903691_1_alg».proof.Proof.Gen.KernelIdeal.Skeleton
import proofs.«123896_j29824252903691_1_alg».proof.Proof.Joint
import proofs.«123896_j29824252903691_1_alg».proof.Proof.SoftmaxRows
import proofs.«123896_j29824252903691_1_alg».proof.Proof.LibLayoutCols
import proofs.«123896_j29824252903691_1_alg».proof.Proof.LibPlainMatmul
import Idealize.ShloMosaic.Lib.ValueLayout

noncomputable section

namespace Cert.KernelIdeal.Body

open Cert.KernelIdeal Cert.KernelIdeal.Gen Idealize.ShloMosaic Idealize.ShloMosaic.TcCoe Idealize.ShloMosaic.ValueIdx
open Idealize.ShloMosaic.LibLayoutCols Idealize.ShloMosaic.LibPlainMatmul Cert.Joiner

/-! ## The two projections -/

/-- The source tile times the top half of the first weight matrix. -/
def srcProj (P0 : FVec Ideal S1x16x512 .bf16) (P1 : FVec Ideal S512x640 .bf16) : FVec Ideal S16x640 .f32 :=
  matmul dot_S16x512_S512x640_S16x640_1_0_0_1_n_n none (shapeCast S16x512 P0 shapeCasts_S1x16x512_S16x512)
    (shapeCast S512x640 P1 shapeCasts_S512x640_S512x640) (constant S16x640 .f32 0x00000000#32)

/-- At (r, h): source row r against column h of the top half. -/
theorem srcProj_apply (P0 : FVec Ideal S1x16x512 .bf16) (P1 : FVec Ideal S512x640 .bf16) (r : Fin 16) (h : Fin 640) :
    srcProj P0 P1 (ix2 r h) = rowMat (fun d : Fin 512 => P0 (ix3 (0 : Fin 1) r d)) (fun d h => P1 (ix2 d h)) h := by
  unfold srcProj rowMat
  show matmul (DotDims.plain 16 512 640) none _ _ _ (ix2 r h) = _
  refine (matmul_plain_zero_apply none _ _ r h).trans (Finset.sum_congr rfl fun d _ => ?_)
  rw [shapeCast_1ab_ab_apply P0 _ r d, shapeCast_self]

/-- The target rows times the bottom half of the first weight matrix. -/
def tgtProj (P2 : FVec Ideal S1x64x512 .bf16) (P3 : FVec Ideal S512x640 .bf16) : FVec Ideal S64x640 .f32 :=
  matmul dot_S64x512_S512x640_S64x640_1_0_0_1_n_n none (shapeCast S64x512 P2 shapeCasts_S1x64x512_S64x512)
    (shapeCast S512x640 P3 shapeCasts_S512x640_S512x640) (constant S64x640 .f32 0x00000000#32)

/-- At (u, h): target row u against column h of the bottom half. -/
theorem tgtProj_apply (P2 : FVec Ideal S1x64x512 .bf16) (P3 : FVec Ideal S512x640 .bf16) (u : Fin 64) (h : Fin 640) :
    tgtProj P2 P3 (ix2 u h) = rowMat (fun d : Fin 512 => P2 (ix3 (0 : Fin 1) u d)) (fun d h => P3 (ix2 d h)) h := by
  unfold tgtProj rowMat
  show matmul (DotDims.plain 64 512 640) none _ _ _ (ix2 u h) = _
  refine (matmul_plain_zero_apply none _ _ u h).trans (Finset.sum_congr rfl fun d _ => ?_)
  rw [shapeCast_1ab_ab_apply P2 _ u d, shapeCast_self]

/-! ## The hidden layer over all (source row, target row) pairs -/

/-- The two projections added over all pairs, plus the bias, through tanh. -/
def hiddenTile (A : FVec Ideal S16x640 .f32) (B : FVec Ideal S64x640 .f32) (P4 : FVec Ideal S640 .f32) :
    FVec Ideal S16x64x640 .f32 :=
  tanh (addf (addf (broadcastTo S16x64x640 (shapeCast S16x1x640 A shapeCasts_S16x640_S16x1x640) broadcasts_S16x1x640_S16x64x640)
      (broadcastTo S16x64x640 (shapeCast S1x64x640 B shapeCasts_S64x640_S1x64x640) broadcasts_S1x64x640_S16x64x640))
    (broadcastTo S16x64x640 (shapeCast S1x1x640 P4 shapeCasts_S640_S1x1x640) broadcasts_S1x1x640_S16x64x640))

/-- At (r, u, h): tanh of source projection (r, h) plus target projection (u, h) plus bias h. -/
theorem hiddenTile_apply (A : FVec Ideal S16x640 .f32) (B : FVec Ideal S64x640 .f32) (P4 : FVec Ideal S640 .f32)
    (r : Fin 16) (u : Fin 64) (h : Fin 640) :
    hiddenTile A B P4 (ix3 r u h) = Ideal.tanh (A (ix2 r h) + B (ix2 u h) + P4 (ix1 h)) := by
  unfold hiddenTile
  show Ideal.tanh ((broadcastTo S16x64x640 _ _ (ix3 r u h) + broadcastTo S16x64x640 _ _ (ix3 r u h))
    + broadcastTo S16x64x640 _ _ (ix3 r u h)) = _
  refine congrArg Ideal.tanh (congrArg₂ (· + ·) (congrArg₂ (· + ·) ?_ ?_) ?_)
  · exact (broadcastTo_a1c_abc_apply _ _ r u h).trans (shapeCast_ac_a1c_apply A _ r 0 h)
  · exact (broadcastTo_1bc_abc_apply _ _ r u h).trans (shapeCast_ab_1ab_apply B _ 0 u h)
  · exact (broadcastTo_11c_abc_apply _ _ r u h).trans (shapeCast_c_11c_apply P4 _ 0 0 h)

/-! ## The logits, pair (r, u) in row r·64 + u -/

/-- The hidden layer laid out as 1024 rows, times the second weight matrix, plus its bias. -/
def logitsBlock (Hd : FVec Ideal S16x64x640 .f32) (P5 : FVec Ideal S640x1024 .bf16) (P6 : FVec Ideal S1024 .f32) :
    FVec Ideal S1024x1024 .f32 :=
  addf (matmul dot_S1024x640_S640x1024_S1024x1024_1_0_0_1_n_n none
      (shapeCast S1024x640 (truncf .bf16 Hd bitsLt_bf16_f32) shapeCasts_S16x64x640_S1024x640)
      (shapeCast S640x1024 P5 shapeCasts_S640x1024_S640x1024) (constant S1024x1024 .f32 0x00000000#32))
    (broadcastTo S1024x1024 (shapeCast S1x1024 P6 shapeCasts_S1024_S1x1024) broadcasts_S1x1024_S1024x1024)

/-- At (r·64 + u, v): the logit of class v for the pair's hidden units. -/
theorem logitsBlock_apply (Hd : FVec Ideal S16x64x640 .f32) (P5 : FVec Ideal S640x1024 .bf16) (P6 : FVec Ideal S1024 .f32)
    (r : Fin 16) (u : Fin 64) (p : Fin 1024) (hp : p.val = r.val * 64 + u.val) (v : Fin 1024) :
    logitsBlock Hd P5 P6 (ix2 p v)
      = logit (fun h : Fin 640 => Hd (ix3 r u h)) (fun h v => P5 (ix2 h v)) (fun v => P6 (ix1 v)) v := by
  unfold logitsBlock logit rowMat
  show matmul (DotDims.plain 1024 640 1024) none _ _ _ (ix2 p v) + broadcastTo S1024x1024 _ _ (ix2 p v) = _
  refine congrArg₂ (· + ·) ?_ ?_
  · refine (matmul_plain_zero_apply none _ _ p v).trans (Finset.sum_congr rfl fun h _ => ?_)
    rw [shapeCast_abc_nc_apply _ _ r u p hp h, shapeCast_self]
    rfl
  · exact (broadcastTo_1b_ab_apply _ _ p v).trans (shapeCast_a_1a_apply P6 _ 0 v)

/-! ## The whole body -/

/-- The body's value is these stages composed: its text, regrouped. -/
theorem pay2_eq (P0 : FVec Ideal S1x16x512 .bf16) (P1 : FVec Ideal S512x640 .bf16) (P2 : FVec Ideal S1x64x512 .bf16)
    (P3 : FVec Ideal S512x640 .bf16) (P4 : FVec Ideal S640 .f32) (P5 : FVec Ideal S640x1024 .bf16) (P6 : FVec Ideal S1024 .f32) :
    k0_pay2 (F := Ideal) P0 P1 P2 P3 P4 P5 P6
      = blockLogSoftmax (logitsBlock (hiddenTile (srcProj P0 P1) (tgtProj P2 P3) P4) P5 P6)
          reduces_S1024x1024_S1024 shapeCasts_S1024_S1024x1 broadcasts_S1024x1_S1024x1024 (.inl rfl) rfl rfl := rfl

/-- The body's value at the entry (r·64 + u, v): the row function of source row r and target row u of the point's tiles. -/
theorem pay2_apply (P0 : FVec Ideal S1x16x512 .bf16) (P1 : FVec Ideal S512x640 .bf16) (P2 : FVec Ideal S1x64x512 .bf16)
    (P3 : FVec Ideal S512x640 .bf16) (P4 : FVec Ideal S640 .f32) (P5 : FVec Ideal S640x1024 .bf16) (P6 : FVec Ideal S1024 .f32)
    (r : Fin 16) (u : Fin 64) (p : Fin 1024) (hp : p.val = r.val * 64 + u.val) (v : Fin 1024) :
    k0_pay2 (F := Ideal) P0 P1 P2 P3 P4 P5 P6 (ix2 p v)
      = joint (fun d : Fin 512 => P0 (ix3 (0 : Fin 1) r d)) (fun d : Fin 512 => P2 (ix3 (0 : Fin 1) u d))
          (fun d h => P1 (ix2 d h)) (fun d h => P3 (ix2 d h)) (fun h => P4 (ix1 h)) (fun h v => P5 (ix2 h v))
          (fun v => P6 (ix1 v)) v := by
  rw [pay2_eq]
  refine (blockLogSoftmax_apply _ _ _ _ _ _ _ p v).trans ?_
  unfold joint
  refine congrArg (fun z => logSoftmax z v) (funext fun v' => ?_)
  refine (logitsBlock_apply _ P5 P6 r u p hp v').trans ?_
  refine congrArg (fun hd => logit hd _ _ v') (funext fun h => ?_)
  rw [hiddenTile_apply, srcProj_apply, tgtProj_apply]
  rfl

end Cert.KernelIdeal.Body

end
-- ==== Proof.Blocks.lean ====
/-
  From the grid points' blocks to the whole output array. Grid point (b, tb) stages source rows 16·tb … 16·tb + 15 of
  batch b, all 64 target rows of batch b and the whole weights and biases, and writes back the [1, 16, 64, 1024] block at
  block index (b, tb, 0, 0). The arrays the kernel's windows stage are the arguments themselves at the ideal values (a
  change of float format is the identity), the two halves of the first weight matrix being its row slices. What the
  body leaves at the block index (0, r, u, v) is the row function of the point's source row r and target row u at v, which
  is the whole-array function `G` at the array index under it, (b, 16·tb + r, u, v). The 32 blocks tile the array, so after
  the run the output array is `G` of the arguments.
-/
import proofs.«123896_j29824252903691_1_alg».proof.Proof.KValue
import proofs.«123896_j29824252903691_1_alg».proof.Proof.Payload
import proofs.«123896_j29824252903691_1_alg».proof.Proof.Joint
import Idealize.ShloMosaic.Lib.StableHlo.Run

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Cert.Joiner
open Idealize.ShloMosaic.Pipeline (Dat)

variable (m : (ℓ : Loc nD τ sig) → Buf (Elt Ideal) ℓ) (ρ : Dev nD → PrngReg)

/-- The row function respects equality of each of its arguments. -/
theorem joint_congr {x x' y y' : Fin 512 → EReal} {A A' B B' : Fin 512 → Fin 640 → EReal} {c1 c1' : Fin 640 → EReal}
    {W W' : Fin 640 → Fin 1024 → EReal} {c2 c2' : Fin 1024 → EReal} {v v' : Fin 1024}
    (hx : x = x') (hy : y = y') (hA : A = A') (hB : B = B') (h1 : c1 = c1') (hW : W = W') (h2 : c2 = c2') (hv : v = v') :
    joint x y A B c1 W c2 v = joint x' y' A' B' c1' W' c2' v' := by
  subst hx hy hA hB h1 hW h2 hv; rfl

/-- The output array as the function `G` of the launch contents of the six float arguments. -/
abbrev Gk (c : Dev nD) : S4x128x64x1024.Idx → EReal :=
  G (m ((c : Thread nD τ).loc main_arg0)) (m ((c : Thread nD τ).loc main_arg2)) (m ((c : Thread nD τ).loc main_arg4))
    (m ((c : Thread nD τ).loc main_arg5)) (m ((c : Thread nD τ).loc main_arg6)) (m ((c : Thread nD τ).loc main_arg7))

/-! ## The arrays the windows stage, as the region finds them -/

/-- The source encodings in the narrower format are the source encodings. -/
theorem V_src (c : Dev nD) : (V m c main_v0 : S4x128x512.Idx → EReal) = m ((c : Thread nD τ).loc main_arg0) := by
  dsimp only [Gen.V, Gen.hostOps0]; after_results; rfl
/-- The target encodings likewise. -/
theorem V_tgt (c : Dev nD) : (V m c main_v1 : S4x64x512.Idx → EReal) = m ((c : Thread nD τ).loc main_arg2) := by
  dsimp only [Gen.V, Gen.hostOps0]; after_results; rfl
/-- The top half of the first weight matrix is its rows 0 … 511. -/
theorem V_top (c : Dev nD) : (V m c main_v3 : S512x640.Idx → EReal)
    = extractStridedSlice S512x640 ![0, 0] (m ((c : Thread nD τ).loc main_arg4)) slices_S1024x640_S512x640_0_0 := by
  dsimp only [Gen.V, Gen.hostOps0]; after_results; rfl
/-- The bottom half is its rows 512 … 1023. -/
theorem V_bot (c : Dev nD) : (V m c main_v5 : S512x640.Idx → EReal)
    = extractStridedSlice S512x640 ![512, 0] (m ((c : Thread nD τ).loc main_arg4)) slices_S1024x640_S512x640_512_0 := by
  dsimp only [Gen.V, Gen.hostOps0]; after_results; rfl
/-- The second weight matrix in the narrower format is the second weight matrix. -/
theorem V_w2 (c : Dev nD) : (V m c main_v6 : S640x1024.Idx → EReal) = m ((c : Thread nD τ).loc main_arg6) := by
  dsimp only [Gen.V, Gen.hostOps0]; after_results; rfl

/-! ## What the body leaves in the block, at a block index -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The staging buffer of the output after the body, at the block index y = (0, r, u, v): the row function of source row r
    and target row u of the staged tiles, at v. -/
theorem out_at (x0 : Vec Ideal S1x16x512 .bf16) (x1 : Vec Ideal S1x64x512 .bf16) (x2 : Vec Ideal S512x640 .bf16)
    (x3 : Vec Ideal S512x640 .bf16) (x4 : Vec Ideal S640 .f32) (x5 : Vec Ideal S640x1024 .bf16) (x6 : Vec Ideal S1024 .f32)
    (y : S1x16x64x1024.Idx) :
    out0_7 x0 x1 x2 x3 x4 x5 x6 y
      = joint (fun d : Fin 512 => x0 (ix3 (0 : Fin 1) (y 1) d)) (fun d : Fin 512 => x1 (ix3 (0 : Fin 1) (y 2) d))
          (fun d h => x2 (ix2 d h)) (fun d h => x3 (ix2 d h)) (fun h => x4 (ix1 h)) (fun h v => x5 (ix2 h v))
          (fun v => x6 (ix1 v)) (y 3) := by
  unfold out0_7
  rw [ValueP.canon7_eq]
  show k0_pay2 (F := Ideal) (View.ld x0 r0_0) (View.ld x2 r0_1) (View.ld x1 r0_2) (View.ld x3 r0_1) (View.ld x4 r0_3)
    (View.ld x5 r0_4) (View.ld x6 r0_5) (ValueP.ix7_0 y) = _
  simp only [View.ld_unit_zero (S := S1x16x512) hz3, View.ld_unit_zero (S := S512x640) hz2,
    View.ld_unit_zero (S := S1x64x512) hz3, View.ld_unit_zero (S := S640) hz1, View.ld_unit_zero (S := S640x1024) hz2,
    View.ld_unit_zero (S := S1024) hz1]
  have hy1 : (y 1).val < 16 := (y 1).isLt
  have hy2 : (y 2).val < 64 := (y 2).isLt
  have e : ValueP.ix7_0 y = ix2 (⟨(y 1).val * 64 + (y 2).val, by omega⟩ : Fin 1024) (y 3) :=
    funext fun a => by match a with | ⟨0, _⟩ => rfl | ⟨1, _⟩ => rfl
  rw [e]
  exact pay2_apply x0 x2 x1 x3 x4 x5 x6 (y 1) (y 2) _ rfl (y 3)

/-! ## The index maps, decided over the 32 grid points -/

/-- The source window moves with the output on the batch and row-tile axes; the target window on the batch axis; every other
    block index is 0; the output's block indices stay in their ranges. -/
theorem idx_facts : ∀ t : Fin cfg0.N,
    win0_0.index t (0 : Fin 3) = win0_7.index t (0 : Fin 4) ∧ win0_0.index t (1 : Fin 3) = win0_7.index t (1 : Fin 4)
    ∧ win0_0.index t (2 : Fin 3) = 0
    ∧ win0_1.index t (0 : Fin 3) = win0_7.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 4) ≤ 3 ∧ win0_7.index t (1 : Fin 4) ≤ 7
    ∧ win0_7.index t (2 : Fin 4) = 0 ∧ win0_7.index t (3 : Fin 4) = 0 :=
  (by decide +kernel : ∀ t : Fin grid0.N, _)

/-- Every (batch, row tile) is some grid point's output block. -/
theorem idx_onto : ∀ (q0 : Fin 4) (q1 : Fin 8), ∃ t : Fin cfg0.N, win0_7.index t = ![q0.val, q1.val, 0, 0] :=
  (by decide +kernel : ∀ (q0 : Fin 4) (q1 : Fin 8), ∃ t : Fin grid0.N, win0_7.index t = ![q0.val, q1.val, 0, 0])

/-! ## What a point writes back is its block of `G` -/

theorem flushed_eq (c : Dev nD) (t : Fin cfg0.N) :
    (dats m 0 c).flushed 7 t = ((cfg0.win 7).blk t).view.read (Elt Ideal) (Gk m c) := by
  rw [ValueP.flushed7]
  obtain ⟨e00, e01, e02, e10, e11, e12, e20, e21, e30, e31, e40, e50, e51, e60, b0, b1, e72, e73⟩ := idx_facts t
  funext j
  have hj0 : (j 0).val < 1 := (j 0).isLt
  have hj1 : (j 1).val < 16 := (j 1).isLt
  have hj2 : (j 2).val < 64 := (j 2).isLt
  have hj3 : (j 3).val < 1024 := (j 3).isLt
  show out0_7 (iblk m c 0 t) (iblk m c 1 t) (iblk m c 2 t) (iblk m c 3 t) (iblk m c 4 t) (iblk m c 5 t) (iblk m c 6 t) j
    = Gk m c (((cfg0.win 7).blk t).view.emb j)
  rw [out_at]
  unfold Gk G
  refine joint_congr (funext fun d => ?_) (funext fun d => ?_) (funext fun d => funext fun h => ?_)
    (funext fun d => funext fun h => ?_) (funext fun h => ?_) (funext fun h => funext fun v => ?_) (funext fun v => ?_) ?_
  · -- the source row
    show V m c main_v0 (((cfg0.win 0).blk t).view.emb (ix3 (0 : Fin 1) (j 1) d)) = _
    refine (congrFun (V_src m c) _).trans (congrArg _ (funext fun a => Fin.ext ?_))
    match a with
    | ⟨0, _⟩ => show win0_0.index t (0 : Fin 3) * 1 + 1 * 0 = win0_7.index t (0 : Fin 4) * 1 + 1 * (j 0).val; omega
    | ⟨1, _⟩ => show win0_0.index t (1 : Fin 3) * 16 + 1 * (j 1).val = win0_7.index t (1 : Fin 4) * 16 + 1 * (j 1).val; omega
    | ⟨2, _⟩ => show win0_0.index t (2 : Fin 3) * 512 + 1 * d.val = d.val; omega
  · -- the target row
    show V m c main_v1 (((cfg0.win 1).blk t).view.emb (ix3 (0 : Fin 1) (j 2) d)) = _
    refine (congrFun (V_tgt m c) _).trans (congrArg _ (funext fun a => Fin.ext ?_))
    match a with
    | ⟨0, _⟩ => show win0_1.index t (0 : Fin 3) * 1 + 1 * 0 = win0_7.index t (0 : Fin 4) * 1 + 1 * (j 0).val; omega
    | ⟨1, _⟩ => show win0_1.index t (1 : Fin 3) * 64 + 1 * (j 2).val = win0_7.index t (2 : Fin 4) * 64 + 1 * (j 2).val; omega
    | ⟨2, _⟩ => show win0_1.index t (2 : Fin 3) * 512 + 1 * d.val = d.val; omega
  · -- the top half of the first weight matrix
    show V m c main_v3 (((cfg0.win 2).blk t).view.emb (ix2 d h)) = _
    refine (congrFun (V_top m c) _).trans ?_
    refine extractStridedSlice_apply (s := S1024x640) (t := S512x640) ![0, 0] _ slices_S1024x640_S512x640_0_0 _ _ fun a => ?_
    match a with
    | ⟨0, _⟩ => show d.val = 0 + (win0_2.index t (0 : Fin 2) * 512 + 1 * d.val); omega
    | ⟨1, _⟩ => show h.val = 0 + (win0_2.index t (1 : Fin 2) * 640 + 1 * h.val); omega
  · -- the bottom half
    show V m c main_v5 (((cfg0.win 3).blk t).view.emb (ix2 d h)) = _
    refine (congrFun (V_bot m c) _).trans ?_
    refine extractStridedSlice_apply (s := S1024x640) (t := S512x640) ![512, 0] _ slices_S1024x640_S512x640_512_0 _ _ fun a => ?_
    match a with
    | ⟨0, _⟩ => show 512 + d.val = 512 + (win0_3.index t (0 : Fin 2) * 512 + 1 * d.val); omega
    | ⟨1, _⟩ => show h.val = 0 + (win0_3.index t (1 : Fin 2) * 640 + 1 * h.val); omega
  · -- the first bias
    show V m c main_arg5 (((cfg0.win 4).blk t).view.emb (ix1 h)) = _
    refine (congrFun (V_main_arg5 m c) _).trans (congrArg _ (funext fun a => Fin.ext ?_))
    match a with
    | ⟨0, _⟩ => show win0_4.index t (0 : Fin 1) * 640 + 1 * h.val = h.val; omega
  · -- the second weight matrix
    show V m c main_v6 (((cfg0.win 5).blk t).view.emb (ix2 h v)) = _
    refine (congrFun (V_w2 m c) _).trans (congrArg _ (funext fun a => Fin.ext ?_))
    match a with
    | ⟨0, _⟩ => show win0_5.index t (0 : Fin 2) * 640 + 1 * h.val = h.val; omega
    | ⟨1, _⟩ => show win0_5.index t (1 : Fin 2) * 1024 + 1 * v.val = v.val; omega
  · -- the second bias
    show V m c main_arg7 (((cfg0.win 6).blk t).view.emb (ix1 v)) = _
    refine (congrFun (V_main_arg7 m c) _).trans (congrArg _ (funext fun a => Fin.ext ?_))
    match a with
    | ⟨0, _⟩ => show win0_6.index t (0 : Fin 1) * 1024 + 1 * v.val = v.val; omega
  · -- the class
    refine Fin.ext ?_
    show (j 3).val = win0_7.index t (3 : Fin 4) * 1024 + 1 * (j 3).val
    omega

/-! ## The blocks tile the array -/

/-- An index of the array is in point `t`'s block iff each coordinate is in the block's range on its axis. -/
theorem mem_blk (t : Fin cfg0.N) (i : S4x128x64x1024.Idx) :
    i ∈ ((cfg0.win 7).blk t).view.set ↔ ∀ a : Fin 4, win0_7.index t a * S1x16x64x1024.size a ≤ (i a).val
      ∧ (i a).val < win0_7.index t a * S1x16x64x1024.size a + S1x16x64x1024.size a := by
  show i ∈ ((View.whole main_v7).slice (win0_7.rect t)).set ↔ _
  rw [View.set_slice_whole, Rect.mem_set_unit]
  exact Iff.rfl

/-- Every index of the array is in the block of the point with batch i 0 and row tile (i 1) / 16. -/
theorem cover (i : S4x128x64x1024.Idx) :
    ∃ t : Fin cfg0.N, (cfg0.win 7).flush t = true ∧ i ∈ ((cfg0.win 7).blk t).view.set := by
  have hi0 : (i 0).val < 4 := (i 0).isLt
  have hi1 : (i 1).val < 128 := (i 1).isLt
  have hi2 : (i 2).val < 64 := (i 2).isLt
  have hi3 : (i 3).val < 1024 := (i 3).isLt
  obtain ⟨t, ht⟩ := idx_onto ⟨(i 0).val, hi0⟩ ⟨(i 1).val / 16, by omega⟩
  have q0 : win0_7.index t (0 : Fin 4) = (i 0).val := congrFun ht 0
  have q1 : win0_7.index t (1 : Fin 4) = (i 1).val / 16 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 64 ≤ (i 2).val ∧ (i 2).val < win0_7.index t (2 : Fin 4) * 64 + 64; omega
  | ⟨3, _⟩ => show win0_7.index t (3 : Fin 4) * 1024 ≤ (i 3).val ∧ (i 3).val < win0_7.index t (3 : Fin 4) * 1024 + 1024; omega

/-- The output array after the run is `G` of the arguments. -/
theorem final (c : Dev nD) : (dats m 0 c).arrAt 7 cfg0.N = Gk m c :=
  (dats m 0 c).arrAt_eq_of_cover 7 (Gk m c) (fun t _ => flushed_eq m c t) cover

/-! ## The run, read -/

/-- Every weakly fair execution of the idealized kernel terminates with the output array at `G` of the arguments and the
    arguments unchanged. -/
theorem run : θ_run defs (onTc (τ := τ) (main (F := Ideal))) ⟨m, fun _ => 0, ρ⟩ fun r => ∀ c : Dev nD,
      r.2.mem ((c : Thread nD τ).loc main_v7) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (ValueP.run_blocks m ρ)

end Cert.KernelIdeal.Whole

end
-- ==== Proof.RefSide.lean ====
/-
  The reference, read at one entry (b, t, u, v) of its result. Stage by stage: the two projections are the row–matrix
  products of source row (b, t) and target row (b, u) with the top and bottom half of the first weight matrix; their
  sum plus the bias goes through tanh; the contraction with the second weight matrix plus its bias gives the logits of the
  pair; the maximum over the classes (taken from -∞, and once more against -∞) is the row's maximum; and the shifted
  logits minus the logarithm of the sum of their exponentials is the log-softmax. So the entry is the whole-array
  function `G` of the six float arguments.
-/
import proofs.«123896_j29824252903691_1_alg».proof.Proof.RefRead
import proofs.«123896_j29824252903691_1_alg».proof.Proof.Joint
import Idealize.ShloMosaic.PureOps.Reduce

noncomputable section

namespace Cert.ReferenceIdeal.AtIndex

open Cert.ReferenceIdeal Cert.ReferenceIdeal.Gen Cert.ReferenceIdeal.ReadP Idealize.ShloMosaic Idealize.ShloMosaic.TcCoe
open Idealize.ShloMosaic.ValueIdx Cert.Joiner

variable (x0 : (⟨S4x128x512, .f32⟩ : BufTy).Contents (Elt Ideal)) (x2 : (⟨S4x64x512, .f32⟩ : BufTy).Contents (Elt Ideal))
  (x4 : (⟨S1024x640, .f32⟩ : BufTy).Contents (Elt Ideal)) (x5 : (⟨S640, .f32⟩ : BufTy).Contents (Elt Ideal))
  (x6 : (⟨S640x1024, .f32⟩ : BufTy).Contents (Elt Ideal)) (x7 : (⟨S1024, .f32⟩ : BufTy).Contents (Elt Ideal))

/-- The top half of the first weight matrix, row d. -/
abbrev topW (d : Fin 512) (h : Fin 640) : EReal := x4 (ix2 (⟨d.val, by have := d.isLt; omega⟩ : Fin 1024) h)
/-- The bottom half, row d. -/
abbrev botW (d : Fin 512) (h : Fin 640) : EReal := x4 (ix2 (⟨512 + d.val, by have := d.isLt; omega⟩ : Fin 1024) h)

/-- The source projection at (b, t, h). -/
theorem srcProj_at (b : Fin 4) (t : Fin 128) (h : Fin 640) :
    val_main_v2 (F := Ideal) x0 x4 (ix3 b t h) = rowMat (fun d : Fin 512 => x0 (ix3 b t d)) (topW x4) h := by
  rw [val_main_v2_apply]
  refine Finset.sum_congr rfl fun k _ => ?_
  rw [val_main_v0_apply]
  refine congrArg₂ (· * ·) (congrArg x0 ?_) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The target projection at (b, u, h). -/
theorem tgtProj_at (b : Fin 4) (u : Fin 64) (h : Fin 640) :
    val_main_v3 (F := Ideal) x2 x4 (ix3 b u h) = rowMat (fun d : Fin 512 => x2 (ix3 b u d)) (botW x4) h := by
  rw [val_main_v3_apply]
  refine Finset.sum_congr rfl fun k _ => ?_
  rw [val_main_v1_apply]
  refine congrArg₂ (· * ·) (congrArg x2 ?_) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The hidden layer at (b, t, u, h). -/
theorem hidden_at (b : Fin 4) (t : Fin 128) (u : Fin 64) (h : Fin 640) :
    val_main_v12 (F := Ideal) x0 x2 x4 x5 (ix4 b t u h)
      = hidden (fun d : Fin 512 => x0 (ix3 b t d)) (fun d : Fin 512 => x2 (ix3 b u d)) (topW x4) (botW x4)
          (fun h => x5 (ix1 h)) h := by
  rw [val_main_v12_apply, val_main_v11_apply, val_main_v8_apply, val_main_v6_apply, val_main_v4_apply,
    val_main_v7_apply, val_main_v5_apply, val_main_v10_apply, val_main_v9_apply]
  have e1 : idx_main_v4 (idx_main_v6 (ix4 b t u h)) = ix3 b t h :=
    funext fun a => Fin.ext (by match a with | ⟨0, _⟩ => rfl | ⟨1, _⟩ => rfl | ⟨2, _⟩ => rfl)
  have e2 : idx_main_v5 (idx_main_v7 (ix4 b t u h)) = ix3 b u h :=
    funext fun a => Fin.ext (by match a with | ⟨0, _⟩ => rfl | ⟨1, _⟩ => rfl | ⟨2, _⟩ => rfl)
  have e3 : idx_main_v9 (idx_main_v10 (ix4 b t u h)) = ix1 h :=
    funext fun a => Fin.ext (by match a with | ⟨0, _⟩ => rfl)
  rw [e1, e2, e3, srcProj_at, tgtProj_at]
  rfl

/-- The logits of the pair (t, u) of batch b. -/
theorem logit_at (b : Fin 4) (t : Fin 128) (u : Fin 64) (v : Fin 1024) :
    val_main_v16 (F := Ideal) x0 x2 x4 x5 x6 x7 (ix4 b t u v)
      = logit (hidden (fun d : Fin 512 => x0 (ix3 b t d)) (fun d : Fin 512 => x2 (ix3 b u d)) (topW x4) (botW x4)
          (fun h => x5 (ix1 h))) (fun h v => x6 (ix2 h v)) (fun v => x7 (ix1 v)) v := by
  rw [val_main_v16_apply, val_main_v13_apply, val_main_v15_apply, val_main_v14_apply]
  unfold logit rowMat
  refine congrArg₂ (· + ·) (Finset.sum_congr rfl fun k _ => ?_) (congrArg x7 ?_)
  · have e1 : lidx_main_v13 (ix4 b t u v) k = ix4 b t u k :=
      funext fun a => Fin.ext (by match a with | ⟨0, _⟩ => rfl | ⟨1, _⟩ => rfl | ⟨2, _⟩ => rfl | ⟨3, _⟩ => rfl)
    have e2 : ridx_main_v13 (ix4 b t u v) k = ix2 k v :=
      funext fun a => Fin.ext (by match a with | ⟨0, _⟩ => rfl | ⟨1, _⟩ => rfl)
    rw [e1, e2, hidden_at]
  · exact funext fun a => Fin.ext (by match a with | ⟨0, _⟩ => rfl)

/-- The logits of one pair as a row. -/
abbrev Z (b : Fin 4) (t : Fin 128) (u : Fin 64) : Fin 1024 → EReal := fun v =>
  val_main_v16 (F := Ideal) x0 x2 x4 x5 x6 x7 (ix4 b t u v)

/-- The class axis put back into a reduced index (b, t, u). -/
theorem lift_class (h : S4x128x64x1024.Reduces [3] S4x128x64) (b : Fin 4) (t : Fin 128) (u : Fin 64)
    (k : Fin (S4x128x64x1024.size 3)) : h.lift (ix3 b t u) k = ix4 b t u (⟨k.val, k.isLt⟩ : Fin 1024) := by
  funext c; apply Fin.ext
  fin_cases c <;> rfl

/-- The maximum the reference shifts by is the row's maximum. -/
theorem max_at (b : Fin 4) (t : Fin 128) (u : Fin 64) :
    val_main_call0_v2 (F := Ideal) x0 x2 x4 x5 x6 x7 (ix3 b t u) = rowMax (Z x0 x2 x4 x5 x6 x7 b t u) := by
  have hR : S4x128x64x1024.Reduces [3] S4x128x64 := by decide
  rw [val_main_call0_v2_apply, val_main_call0_v1_apply, val_main_call0_cst_0_apply]
  refine (max_negInf _).trans ?_
  unfold val_main_call0_v0
  rw [Host.reduce_eq_fold_single FloatOps.maximumf _ _ reducesTo_S4x128x64x1024_S4x128x64_d3 hR h_S_]
  have hf : (val_main_v16 (F := Ideal) x0 x2 x4 x5 x6 x7 ∘ hR.lift (ix3 b t u)) = Z x0 x2 x4 x5 x6 x7 b t u :=
    funext fun k => congrArg (val_main_v16 (F := Ideal) x0 x2 x4 x5 x6 x7) (lift_class hR b t u k)
  exact congrArg (fun f => Finset.fold max (Ideal.ofBits .f32 0xFF800000#32) f (Finset.univ : Finset (Fin 1024))) hf

/-- The shifted logit. -/
theorem shifted_at (b : Fin 4) (t : Fin 128) (u : Fin 64) (v : Fin 1024) :
    val_main_call0_v5 (F := Ideal) x0 x2 x4 x5 x6 x7 (ix4 b t u v)
      = Z x0 x2 x4 x5 x6 x7 b t u v - rowMax (Z x0 x2 x4 x5 x6 x7 b t u) := by
  rw [val_main_call0_v5_apply, val_main_call0_v4_apply, val_main_call0_v3_apply]
  have e : idx_main_call0_v3 (idx_main_call0_v4 (ix4 b t u v)) = ix3 b t u :=
    funext fun a => Fin.ext (by match a with | ⟨0, _⟩ => rfl | ⟨1, _⟩ => rfl | ⟨2, _⟩ => rfl)
  rw [e, max_at]
  rfl

/-- The logarithm of the sum of the shifted logits' exponentials. -/
theorem lse_at (b : Fin 4) (t : Fin 128) (u : Fin 64) (v : Fin 1024) :
    val_main_call0_v10 (F := Ideal) x0 x2 x4 x5 x6 x7 (ix4 b t u v)
      = Ideal.log (∑ v' : Fin 1024, Ideal.exp (Z x0 x2 x4 x5 x6 x7 b t u v' - rowMax (Z x0 x2 x4 x5 x6 x7 b t u))) := by
  rw [val_main_call0_v10_apply, val_main_call0_v9_apply, val_main_call0_v8_apply]
  have e : idx_main_call0_v8 (idx_main_call0_v10 (ix4 b t u v)) = ix3 b t u :=
    funext fun a => Fin.ext (by match a with | ⟨0, _⟩ => rfl | ⟨1, _⟩ => rfl | ⟨2, _⟩ => rfl)
  rw [e, val_main_call0_v7_apply, val_main_call0_cst_1_apply]
  show Ideal.log (Ideal.ofBits .f32 0x00000000#32 + _) = _
  rw [Ideal.ofBits_zero_f32, zero_add]
  refine congrArg Ideal.log (Finset.sum_congr rfl fun k _ => ?_)
  have e' : idx_main_call0_v7 (ix3 b t u) k = ix4 b t u k :=
    funext fun a => Fin.ext (by match a with | ⟨0, _⟩ => rfl | ⟨1, _⟩ => rfl | ⟨2, _⟩ => rfl | ⟨3, _⟩ => rfl)
  rw [e', val_main_call0_v6_apply, shifted_at]
  rfl

/-- The reference's result is the whole-array function `G` of the arguments. -/
theorem result_eq_G :
    val_main_v17 (F := Ideal) x0 x2 x4 x5 x6 x7 = G x0 x2 x4 x5 x6 x7 := by
  funext i
  obtain ⟨b, t, u, v, rfl⟩ : ∃ (b : Fin 4) (t : Fin 128) (u : Fin 64) (v : Fin 1024), i = ix4 b t u v :=
    ⟨i 0, i 1, i 2, i 3, eq_ix4 i⟩
  rw [val_main_v17_apply, shifted_at, lse_at]
  unfold G joint logSoftmax
  have hz : Z x0 x2 x4 x5 x6 x7 b t u
      = logit (hidden (fun d : Fin 512 => x0 (ix3 b t d)) (fun d : Fin 512 => x2 (ix3 b u d)) (topW x4) (botW x4)
          (fun h => x5 (ix1 h))) (fun h v => x6 (ix2 h v)) (fun v => x7 (ix1 v)) :=
    funext fun v' => logit_at x0 x2 x4 x5 x6 x7 b t u v'
  rw [hz]
  rfl

end Cert.ReferenceIdeal.AtIndex

end
-- ==== Proof.lean ====
/- The proof of `Cert.Claim` (proofs.«123896_j29824252903691_1_alg».proof.Defs): the joiner kernel against its jnp reference.

   Both programs compute, for every batch b, source frame t and target position u, the log-softmax over 1024 classes of
       tanh (src[b, t] · W1[0:512] + tgt[b, u] · W1[512:1024] + b1) · W2 + b2.
   The kernel does it one [16 source rows] × [64 target rows] tile per grid point, as matrix products on blocks laid out as
   1024 rows; the reference by three contractions over the whole arrays and jax's log_softmax. At the ideal values a
   change of float format is the identity and a matrix product is its textbook sum, so both results are ONE function `G`
   of the six float arguments, entry by entry (Proof/Joint.lean): the reference's by reading its operations one at a time
   at an index (Proof/RefSide.lean), the kernel's by reading its body at a block index (Proof/Payload.lean, over
   Proof/SoftmaxRows.lean) and placing the 32 blocks in the array (Proof/Blocks.lean). No law of arithmetic beyond
   max(-∞, x) = x and 0 + x = x is used, so the precondition (finite inputs) is never opened. The three frames are the
   generated frame runs; `preserves` has no conjunct (the ideal pass rewrote nothing). -/
import proofs.«123896_j29824252903691_1_alg».proof.Defs
import proofs.«123896_j29824252903691_1_alg».proof.Proof.Gen.Kernel
import proofs.«123896_j29824252903691_1_alg».proof.Proof.Gen.Kernel.Skeleton
import proofs.«123896_j29824252903691_1_alg».proof.Proof.Gen.Kernel.Launch
import proofs.«123896_j29824252903691_1_alg».proof.Proof.Gen.Kernel.Points
import proofs.«123896_j29824252903691_1_alg».proof.Proof.Gen.Kernel.Frame
import proofs.«123896_j29824252903691_1_alg».proof.Proof.Gen.KernelIdeal
import proofs.«123896_j29824252903691_1_alg».proof.Proof.Gen.KernelIdeal.Skeleton
import proofs.«123896_j29824252903691_1_alg».proof.Proof.Gen.KernelIdeal.Launch
import proofs.«123896_j29824252903691_1_alg».proof.Proof.Gen.KernelIdeal.Points
import proofs.«123896_j29824252903691_1_alg».proof.Proof.Gen.KernelIdeal.Frame
import proofs.«123896_j29824252903691_1_alg».proof.Proof.Gen.ReferenceIdeal
import proofs.«123896_j29824252903691_1_alg».proof.Proof.Gen.Pre_finite_inputs
import proofs.«123896_j29824252903691_1_alg».proof.Proof.Blocks
import proofs.«123896_j29824252903691_1_alg».proof.Proof.RefSide
import Idealize.ShloMosaic.Adequacy
import Idealize.ShloMosaic.Init

noncomputable section

namespace Cert.Proof

open Idealize.ShloMosaic Idealize.SL.Sem

/-- The kernel as printed runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- From memories that agree on the arguments both programs end with the log-softmax array at `G` of the kernel's
    arguments, and with the two length vectors, which both return untouched. -/
theorem algebraic : Cert.algebraic_KernelIdeal_ReferenceIdeal := by
  intro m ρ m' ρ' _ hagree
  refine ⟨fun c => Cert.KernelIdeal.Whole.Gk m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg3), ?_, ?_⟩
  · exact (θ_run Cert.KernelIdeal.defs _ _).mono
      (fun _ h c => ⟨(h c).1, (h c).2.2.1, (h c).2.2.2.2.1, (h c).2⟩) (Cert.KernelIdeal.Whole.run m ρ)
  · refine (θ_run Cert.ReferenceIdeal.defs _ _).mono (fun _ h c => ⟨(h c).1.trans ?_, (h c).2.1.trans (hagree c).2.1,
      (h c).2.2.1.trans (hagree c).2.2.2.1, (h c).2.2.2⟩) (Cert.ReferenceIdeal.ValueP.run (F := Ideal) m' ρ')
    have ha := hagree c
    rw [Cert.ReferenceIdeal.ReadP.val_main_v17_eq, Cert.ReferenceIdeal.AtIndex.result_eq_G, ha.1, ha.2.2.1,
      ha.2.2.2.2.1, ha.2.2.2.2.2.1, ha.2.2.2.2.2.2.1, ha.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
